-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S128x1 .f32) (main_arg10 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x1 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x1 .f32) (main_arg9 : FVec F S128x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 97
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S128x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S100000x1, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S100000x1, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S100000, .f32⟩
  | .hbm, ⟨76, _⟩ => ⟨S1600000x1, .i32⟩
  | .hbm, ⟨77, _⟩ => ⟨S100000, .f32⟩
  | .hbm, ⟨78, _⟩ => ⟨S100000x1, .f32⟩
  | .hbm, ⟨79, _⟩ => ⟨S_, .f32⟩
  | .hbm, ⟨80, _⟩ => ⟨S128x128, .f32⟩
  | .hbm, ⟨81, _⟩ => ⟨S_, .i32⟩
  | .hbm, ⟨82, _⟩ => ⟨S1, .i32⟩
  | .hbm, ⟨83, _⟩ => ⟨S128x128, .f32⟩
  | .hbm, ⟨84, _⟩ => ⟨S_, .f32⟩
  | .hbm, ⟨85, _⟩ => ⟨S128x128, .f32⟩
  | .hbm, ⟨86, _⟩ => ⟨S_, .i32⟩
  | .hbm, ⟨87, _⟩ => ⟨S1, .i32⟩
  | .hbm, ⟨88, _⟩ => ⟨S128x128, .f32⟩
  | .hbm, ⟨89, _⟩ => ⟨S_, .f32⟩
  | .hbm, ⟨90, _⟩ => ⟨S128, .f32⟩
  | .hbm, ⟨91, _⟩ => ⟨S_, .i32⟩
  | .hbm, ⟨92, _⟩ => ⟨S1, .i32⟩
  | .hbm, ⟨93, _⟩ => ⟨S128, .f32⟩
  | .hbm, ⟨94, _⟩ => ⟨S1x128, .f32⟩
  | .hbm, ⟨95, _⟩ => ⟨S100000x128, .f32⟩
  | .hbm, ⟨96, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S4000x128, .f32⟩
  | .local _ .vmem, ⟨27, _⟩ => ⟨S4000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S4000x128, .f32⟩
  | .local _ .vmem, ⟨32, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_c_14 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_c_16 : Ref sig .tc := ⟨.hbm, 86, rfl⟩
abbrev main_v57 : Ref sig .tc := ⟨.hbm, 87, rfl⟩
abbrev main_v58 : Ref sig .tc := ⟨.hbm, 88, rfl⟩
abbrev main_cst_17 : Ref sig .tc := ⟨.hbm, 89, rfl⟩
abbrev main_v59 : Ref sig .tc := ⟨.hbm, 90, rfl⟩
abbrev main_c_18 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S128x128_S128x128 : S128x128.ShapeCasts S128x128
  slices_S100000x128_S100000x1_0_0 : S100000x128.Slices ![0, 0] S100000x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  scatter_S128x128_S1_S128x1_01_n_1_0_wf : ScatterDims.WF S128x128 S1 S128x1 [0, 1] [] [1] 0
  scatter_S128_S1_S1_0_n_0_0_wf : ScatterDims.WF S128 S1 S1 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def scatter_S128_S1_S1_0_n_0_0 : ScatterDims S128 S1 S1 where
  updateWindowDims := [0]
  insertedWindowDims := []
  scatterDimsToOperandDims := [0]
  indexVectorDim := 0
  wf := scatter_S128_S1_S1_0_n_0_0_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S128x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S_, .f32⟩
  | .hbm, ⟨97, _⟩ => ⟨S1600000, .f32⟩
  | .hbm, ⟨98, _⟩ => ⟨S_, .f32⟩
  | .hbm, ⟨99, _⟩ => ⟨S100000, .f32⟩
  | .hbm, ⟨100, _⟩ => ⟨S1600000x1, .i32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x128, .f32⟩
  | .hbm, ⟨107, _⟩ => ⟨S100000x128, .f32⟩
  | .hbm, ⟨108, _⟩ => ⟨S100000x1, .f32⟩
  | .hbm, ⟨109, _⟩ => ⟨S100000x1, .f32⟩
  | .hbm, ⟨110, _⟩ => ⟨S100000x1, .f32⟩
  | .hbm, ⟨111, _⟩ => ⟨S1x1, .f32⟩
  | .hbm, ⟨112, _⟩ => ⟨S100000x1, .f32⟩
  | .hbm, ⟨113, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  One layer of the network, entry by entry, over the extended reals.

  A layer takes the summed neighbour rows `s`, the neighbour counts `cnt` (one column), the nodes' own rows `root`, two
  128 x 128 weight matrices and a bias row. At node r and column q it gives

      (sum over k of (s r k / max (cnt r) 1) * Wl k q  +  sum over k of root r k * Wr k q)  +  b q,

  followed, in the first two layers, by the maximum with zero. The same formula describes a block of 4000 nodes and the
  whole array of 100000 nodes; a block of the whole array's layer is the layer of the blocks (`layer_block`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The float word of 1.0 and of 0.0, as the extended reals they denote. -/
abbrev one : Ideal .f32 := Ideal.ofBits .f32 0x3F800000#32
abbrev zero : Ideal .f32 := Ideal.ofBits .f32 0x00000000#32

/-- The entry before the activation: from the node's summed-neighbour row, its own row, its count, the two weight
    columns and the bias entry. -/
def entry (s root : Fin 128 → Ideal .f32) (cnt : Ideal .f32) (wl wr : Fin 128 → Ideal .f32) (b : Ideal .f32) : Ideal .f32 :=
  ((∑ k : Fin 128, Ideal.div (s k) (max cnt one) * wl k) + ∑ k : Fin 128, root k * wr k) + b

/-- The activation: the maximum with zero, or nothing. -/
def act (relu : Bool) (x : Ideal .f32) : Ideal .f32 := if relu then max x zero else x

/-- A layer over `n` nodes as one array. -/
def layer (relu : Bool) {n : Nat} (s : FVec Ideal ⟨2, ![n, 128]⟩ .f32) (cnt : FVec Ideal ⟨2, ![n, 1]⟩ .f32)
    (root : FVec Ideal ⟨2, ![n, 128]⟩ .f32) (Wl Wr : FVec Ideal ⟨2, ![128, 128]⟩ .f32) (b : FVec Ideal ⟨2, ![1, 128]⟩ .f32) :
    FVec Ideal ⟨2, ![n, 128]⟩ .f32 := fun i =>
  act relu (entry (fun k => s (ix2 ⟨(i 0).val, idx2_lt0 i⟩ k)) (fun k => root (ix2 ⟨(i 0).val, idx2_lt0 i⟩ k))
    (cnt (ix2 ⟨(i 0).val, idx2_lt0 i⟩ (0 : Fin 1)))
    (fun k => Wl (ix2 k ⟨(i 1).val, idx2_lt1 i⟩)) (fun k => Wr (ix2 k ⟨(i 1).val, idx2_lt1 i⟩))
    (b (ix2 (0 : Fin 1) ⟨(i 1).val, idx2_lt1 i⟩)))

/-- The layer at node r, column q. -/
theorem layer_apply (relu : Bool) {n : Nat} (s : FVec Ideal ⟨2, ![n, 128]⟩ .f32) (cnt : FVec Ideal ⟨2, ![n, 1]⟩ .f32)
    (root : FVec Ideal ⟨2, ![n, 128]⟩ .f32) (Wl Wr : FVec Ideal ⟨2, ![128, 128]⟩ .f32) (b : FVec Ideal ⟨2, ![1, 128]⟩ .f32)
    (r : Fin n) (q : Fin 128) :
    layer relu s cnt root Wl Wr b (ix2 r q)
      = act relu (entry (fun k => s (ix2 r k)) (fun k => root (ix2 r k)) (cnt (ix2 r (0 : Fin 1)))
          (fun k => Wl (ix2 k q)) (fun k => Wr (ix2 k q)) (b (ix2 (0 : Fin 1) q))) := rfl

/-- A block of 4000 nodes starting at node `o`: the whole array's layer there is the layer of the blocks. -/
theorem layer_block (relu : Bool) (S : FVec Ideal ⟨2, ![100000, 128]⟩ .f32) (C : FVec Ideal ⟨2, ![100000, 1]⟩ .f32)
    (R : FVec Ideal ⟨2, ![100000, 128]⟩ .f32) (Wl Wr : FVec Ideal ⟨2, ![128, 128]⟩ .f32) (b : FVec Ideal ⟨2, ![1, 128]⟩ .f32)
    (sb : FVec Ideal ⟨2, ![4000, 128]⟩ .f32) (cb : FVec Ideal ⟨2, ![4000, 1]⟩ .f32) (rb : FVec Ideal ⟨2, ![4000, 128]⟩ .f32)
    (o : Nat) (ho : o + 4000 ≤ 100000)
    (hs : ∀ (p : Fin 4000) (k : Fin 128), sb (ix2 p k) = S (ix2 ⟨o + p.val, by have := p.isLt; omega⟩ k))
    (hc : ∀ p : Fin 4000, cb (ix2 p (0 : Fin 1)) = C (ix2 ⟨o + p.val, by have := p.isLt; omega⟩ (0 : Fin 1)))
    (hr : ∀ (p : Fin 4000) (k : Fin 128), rb (ix2 p k) = R (ix2 ⟨o + p.val, by have := p.isLt; omega⟩ k))
    (p : Fin 4000) (q : Fin 128) :
    layer relu sb cb rb Wl Wr b (ix2 p q) = layer relu S C R Wl Wr b (ix2 ⟨o + p.val, by have := p.isLt; omega⟩ q) := by
  rw [layer_apply, layer_apply]
  simp only [hs, hc, hr]

end Cert.Sage

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelPay.lean ====
/-
  The kernel body's arithmetic is one layer over a block of 4000 nodes: the value each body stores, as a function of
  the six blocks it loads, is `Cert.Sage.layer` of them (the first two bodies with the maximum with zero, the third without).
-/
import proofs.«417667_j86053964743052_3_alg».proof.Proof.Gen.KernelIdeal.Skeleton
import proofs.«417667_j86053964743052_3_alg».proof.Proof.Spec
import proofs.«417667_j86053964743052_3_alg».proof.Proof.LibMatmul
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-- The body's dimension numbers are those of the plain 4000 x 128 by 128 x 128 product. -/
theorem dot_eq_plain : dot_S4000x128_S128x128_S4000x128_1_0_0_1_n_n = DotDims.plain 4000 128 128 := rfl

/-- A column broadcast along the lanes reads, at (p, q), the column's entry at row p. -/
theorem bcast_col_apply (x : FVec Ideal S4000x1 .f32) (p : Fin 4000) (q : Fin 128) :
    broadcastTo S4000x128 x broadcasts_S4000x1_S4000x128 (ix2 p q) = x (ix2 p (0 : Fin 1)) := by
  refine broadcastTo_apply x _ (ix2 p q) (ix2 p (0 : Fin 1)) ?_
  intro a
  match a with
  | ⟨0, _⟩ => rfl
  | ⟨1, _⟩ => rfl

/-- A row broadcast down the rows reads, at (p, q), the row's entry at column q. -/
theorem bcast_row_apply (x : FVec Ideal S1x128 .f32) (p : Fin 4000) (q : Fin 128) :
    broadcastTo S4000x128 x broadcasts_S1x128_S4000x128 (ix2 p q) = x (ix2 (0 : Fin 1) q) := by
  refine broadcastTo_apply x _ (ix2 p q) (ix2 (0 : Fin 1) q) ?_
  intro a
  match a with
  | ⟨0, _⟩ => rfl
  | ⟨1, _⟩ => rfl

/-- The body's product into the zero constant reads, at (p, q), the sum over k of l (p, k) * r (k, q). -/
theorem matmul_apply (l : FVec Ideal S4000x128 .f32) (r : FVec Ideal S128x128 .f32) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  rw [dot_eq_plain]
  exact Cert.Matmul.matmul_plain_apply none l r p q

/-- The arithmetic before the activation, with the identity casts removed, read at (p, q): the layer's entry there.
    The left product's summand at k is s (p, k) / max (cnt p) 1 times Wl (k, q); the right product's is
    root (p, k) * Wr (k, q); the bias row contributes b q. -/
theorem pre_apply (s root : FVec Ideal S4000x128 .f32) (cnt : FVec Ideal S4000x1 .f32) (Wl Wr : FVec Ideal S128x128 .f32)
    (b : FVec Ideal S1x128 .f32) (p : Fin 4000) (q : Fin 128) :
    addf (addf
        (matmul dot_S4000x128_S128x128_S4000x128_1_0_0_1_n_n none
          (divf s (broadcastTo S4000x128 (maximumf cnt (broadcast S4000x1 (Scalar.ofBits (F := Ideal) .f32 0x3F800000#32)))
            broadcasts_S4000x1_S4000x128)) Wl (constant (F := Ideal) S4000x128 .f32 0x00000000#32))
        (matmul dot_S4000x128_S128x128_S4000x128_1_0_0_1_n_n none root Wr (constant (F := Ideal) S4000x128 .f32 0x00000000#32)))
      (broadcastTo S4000x128 b broadcasts_S1x128_S4000x128) (ix2 p q)
      = Cert.Sage.entry (fun k => s (ix2 p k)) (fun k => root (ix2 p k)) (cnt (ix2 p (0 : Fin 1)))
          (fun k => Wl (ix2 k q)) (fun k => Wr (ix2 k q)) (b (ix2 (0 : Fin 1) q)) := by
  unfold Cert.Sage.entry
  refine congrArg₂ (· + ·) (congrArg₂ (· + ·) ?_ ?_) ?_
  · refine (matmul_apply _ _ p q).trans ?_
    refine Finset.sum_congr rfl fun k _ => ?_
    refine congrArg (· * Wl (ix2 k q)) ?_
    refine (divf_apply _ _ _).trans ?_
    rw [bcast_col_apply]
    rfl
  · exact matmul_apply _ _ p q
  · exact bcast_row_apply b p q

theorem pay0_eq (v0 : Vec Ideal S4000x128 .f32) (v2 : Vec Ideal S4000x1 .f32) (v8 : Vec Ideal S4000x128 .f32)
    (v9 v11 : Vec Ideal S128x128 .f32) (v14 : Vec Ideal S1x128 .f32) :
    k0_pay1 (F := Ideal) v0 v2 v8 v9 v11 v14 = Cert.Sage.layer true v0 v2 v8 v9 v11 v14 := by
  funext j
  obtain ⟨p, q, rfl⟩ : ∃ (p : Fin 4000) (q : Fin 128), j = ix2 p q := ⟨j 0, j 1, eq_ix2 j⟩
  rw [Cert.Sage.layer_apply]
  unfold k0_pay1
  simp only [shapeCast_self]
  exact congrArg (fun x => max x Cert.Sage.zero) (pre_apply v0 v8 v2 v9 v11 v14 p q)

theorem pay1_eq (v0 : Vec Ideal S4000x128 .f32) (v2 : Vec Ideal S4000x1 .f32) (v8 : Vec Ideal S4000x128 .f32)
    (v10 v12 : Vec Ideal S128x128 .f32) (v15 : Vec Ideal S1x128 .f32) :
    k1_pay1 (F := Ideal) v0 v2 v8 v10 v12 v15 = Cert.Sage.layer true v0 v2 v8 v10 v12 v15 := by
  funext j
  obtain ⟨p, q, rfl⟩ : ∃ (p : Fin 4000) (q : Fin 128), j = ix2 p q := ⟨j 0, j 1, eq_ix2 j⟩
  rw [Cert.Sage.layer_apply]
  unfold k1_pay1
  simp only [shapeCast_self]
  exact congrArg (fun x => max x Cert.Sage.zero) (pre_apply v0 v8 v2 v10 v12 v15 p q)

theorem pay2_eq (v0 : Vec Ideal S4000x128 .f32) (v2 : Vec Ideal S4000x1 .f32) (v8 : Vec Ideal S4000x128 .f32)
    (v10 v13 : Vec Ideal S128x128 .f32) (v17 : Vec Ideal S1x128 .f32) :
    k2_pay1 (F := Ideal) v0 v2 v8 v10 v13 v17 = Cert.Sage.layer false v0 v2 v8 v10 v13 v17 := by
  funext j
  obtain ⟨p, q, rfl⟩ : ∃ (p : Fin 4000) (q : Fin 128), j = ix2 p q := ⟨j 0, j 1, eq_ix2 j⟩
  rw [Cert.Sage.layer_apply]
  unfold k2_pay1
  simp only [shapeCast_self]
  exact pre_apply v0 v8 v2 v10 v13 v17 p q

end Cert.KernelIdeal.Pay

end
-- ==== Proof.Region0.lean ====
/-
  The first pallas_call's result array, whatever the buffers hold when the region is entered: the 25 grid points write
  back the 25 blocks of 4000 rows, each the layer of the point's input blocks, so the array ends as the layer of the whole
  input arrays.
-/
import proofs.«417667_j86053964743052_3_alg».proof.Proof.Gen.KernelIdeal.Frame
import proofs.«417667_j86053964743052_3_alg».proof.Proof.KernelPay
import Idealize.ShloMosaic.Lib.Pipeline.Value

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows and the output window sit at block (t, 0), the two weight
    matrices and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := lt_of_lt_of_eq t.isLt (show cfg0.N = 25 from N_0)

/-- Row p of the summed-neighbour window's block at point t is row 4000 t + p of its array. -/
theorem blk_s (c : Dev nD) (t : Fin cfg0.N) (p : Fin 4000) (k : Fin 128) :
    (iblk0 V c 0 t : Vec Ideal S4000x128 .f32) (ix2 p k)
      = (V c main_v13 : Vec Ideal S100000x128 .f32) (ix2 ⟨t.val * 4000 + p.val, by have := t_lt t; have := p.isLt; omega⟩ k) := by
  obtain ⟨e0, e1, -⟩ := idx_facts t
  unfold iblk0
  rw [View.read_apply]
  show V c main_v13 _ = V c main_v13 _
  congr 1
  funext a
  apply Fin.ext
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- The count window's block: row p is row 4000 t + p of the count column. -/
theorem blk_c (c : Dev nD) (t : Fin cfg0.N) (p : Fin 4000) :
    (iblk0 V c 1 t : Vec Ideal S4000x1 .f32) (ix2 p (0 : Fin 1))
      = (V c main_v18 : Vec Ideal S100000x1 .f32) (ix2 ⟨t.val * 4000 + p.val, by have := t_lt t; have := p.isLt; omega⟩ (0 : Fin 1)) := by
  obtain ⟨-, -, e0, e1, -⟩ := idx_facts t
  unfold iblk0
  rw [View.read_apply]
  show V c main_v18 _ = V c main_v18 _
  congr 1
  funext a
  apply Fin.ext
  match a with
  | ⟨0, _⟩ => show win0_1.index t (0 : Fin 2) * 4000 + 1 * p.val = t.val * 4000 + p.val; rw [e0]; omega
  | ⟨1, _⟩ => show win0_1.index t (1 : Fin 2) * 1 + 1 * 0 = 0; rw [e1]

/-- The nodes' own rows: row p of the block is row 4000 t + p of the array. -/
theorem blk_r (c : Dev nD) (t : Fin cfg0.N) (p : Fin 4000) (k : Fin 128) :
    (iblk0 V c 2 t : Vec Ideal S4000x128 .f32) (ix2 p k)
      = (V c main_arg0 : Vec Ideal S100000x128 .f32) (ix2 ⟨t.val * 4000 + p.val, by have := t_lt t; have := p.isLt; omega⟩ k) := by
  obtain ⟨-, -, -, -, e0, e1, -⟩ := idx_facts t
  unfold iblk0
  rw [View.read_apply]
  show V c main_arg0 _ = V c main_arg0 _
  congr 1
  funext a
  apply Fin.ext
  match a with
  | ⟨0, _⟩ => show win0_2.index t (0 : Fin 2) * 4000 + 1 * p.val = t.val * 4000 + p.val; rw [e0]; omega
  | ⟨1, _⟩ => show win0_2.index t (1 : Fin 2) * 128 + 1 * k.val = k.val; rw [e1]; omega

/-- The two weight matrices and the bias row are staged whole. -/
theorem blk_wl (c : Dev nD) (t : Fin cfg0.N) : (iblk0 V c 3 t : Vec Ideal S128x128 .f32) = V c main_arg2 := by
  obtain ⟨-, -, -, -, -, -, e0, e1, -⟩ := idx_facts t
  funext j
  unfold iblk0
  rw [View.read_apply]
  show V c main_arg2 _ = V c main_arg2 _
  congr 1
  funext a
  apply Fin.ext
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

theorem blk_wr (c : Dev nD) (t : Fin cfg0.N) : (iblk0 V c 4 t : Vec Ideal S128x128 .f32) = V c main_arg3 := by
  obtain ⟨-, -, -, -, -, -, -, -, e0, e1, -⟩ := idx_facts t
  funext j
  unfold iblk0
  rw [View.read_apply]
  show V c main_arg3 _ = V c main_arg3 _
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem blk_b (c : Dev nD) (t : Fin cfg0.N) : (iblk0 V c 5 t : Vec Ideal S1x128 .f32) = V c main_v19 := by
  obtain ⟨-, -, -, -, -, -, -, -, -, -, e0, e1, -⟩ := idx_facts t
  funext j
  unfold iblk0
  rw [View.read_apply]
  show V c main_v19 _ = V c main_v19 _
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 128 + 1 * (j 1).val = (j 1).val; rw [e1]; omega

/-- The whole input arrays' layer. -/
abbrev G (c : Dev nD) : Vec Ideal S100000x128 .f32 :=
  Cert.Sage.layer true (V c main_v13) (V c main_v18) (V c main_arg0) (V c main_arg2) (V c main_arg3) (V c main_v19)

/-- What point t writes back is block t of the whole arrays' layer. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 (F := Ideal) V c).after 6 t) = _
  rw [after0_6]
  unfold out0_6
  rw [View.canon_unit_zero hz]
  simp only [View.ld_unit_zero (S := S4000x128) hz, View.ld_unit_zero (S := S4000x1) hz, View.ld_unit_zero (S := S128x128) hz,
    View.ld_unit_zero (S := S1x128) hz]
  rw [Cert.KernelIdeal.Pay.pay0_eq, blk_wl V c t, blk_wr V c t, blk_b V c t]
  obtain ⟨-, -, -, -, -, -, -, -, -, -, -, -, e0, e1⟩ := idx_facts t
  funext j
  obtain ⟨p, q, rfl⟩ : ∃ (p : Fin 4000) (q : Fin 128), j = ix2 p q := ⟨j 0, j 1, eq_ix2 j⟩
  have hemb : ((cfg0.win 6).blk t).view.emb (ix2 p q)
      = (ix2 ⟨t.val * 4000 + p.val, by have := t_lt t; have := p.isLt; omega⟩ q : S100000x128.Idx) := by
    funext a
    apply Fin.ext
    match a with
    | ⟨0, _⟩ => show win0_6.index t (0 : Fin 2) * 4000 + 1 * p.val = t.val * 4000 + p.val; rw [e0]; omega
    | ⟨1, _⟩ => show win0_6.index t (1 : Fin 2) * 128 + 1 * q.val = q.val; rw [e1]; omega
  rw [View.read_apply, hemb]
  exact Cert.Sage.layer_block true (V c main_v13) (V c main_v18) (V c main_arg0) (V c main_arg2) (V c main_arg3) (V c main_v19)
    (iblk0 V c 0 t) (iblk0 V c 1 t) (iblk0 V c 2 t) (t.val * 4000) (by have := t_lt t; omega)
    (fun p k => blk_s V c t p k) (fun p => blk_c V c t p) (fun p k => blk_r V c t p k) p q

/-- An index of the array is in point t's block iff each coordinate is in the block's range. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v20).slice (win0_6.rect t)).set ↔ _
  rw [View.set_slice_whole, Rect.mem_set_unit]
  exact Iff.rfl

/-- Every row of the array lies in the block of the point numbered by the row's quotient by 4000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, -, -, -, -, -, -, e0, e1⟩ := idx_facts t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 128 ≤ (i 1).val ∧ (i 1).val < win0_6.index t (1 : Fin 2) * 128 + 128; rw [e1]; omega

/-- The array the region's output window writes, after the region. -/
theorem final (c : Dev nD) :
    (dat0 (F := Ideal) V c).arrAt 6 cfg0.N
      = Cert.Sage.layer true (V c main_v13) (V c main_v18) (V c main_arg0) (V c main_arg2) (V c main_arg3) (V c main_v19) :=
  (dat0 (F := Ideal) V c).arrAt_eq_of_cover 6 (G V c) (fun t _ => flushed_eq V c t) (cover)

end Cert.KernelIdeal.Region0

end
-- ==== Proof.Region1.lean ====
/-
  The second pallas_call's result array, whatever the buffers hold when the region is entered: the 25 grid points write
  back the 25 blocks of 4000 rows, each the layer of the point's input blocks, so the array ends as the layer of the whole
  input arrays.
-/
import proofs.«417667_j86053964743052_3_alg».proof.Proof.Gen.KernelIdeal.Frame
import proofs.«417667_j86053964743052_3_alg».proof.Proof.KernelPay
import Idealize.ShloMosaic.Lib.Pipeline.Value

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows and the output window sit at block (t, 0), the two weight
    matrices and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 25 := lt_of_lt_of_eq t.isLt (show cfg1.N = 25 from N_1)

/-- Row p of the summed-neighbour window's block at point t is row 4000 t + p of its array. -/
theorem blk_s (c : Dev nD) (t : Fin cfg1.N) (p : Fin 4000) (k : Fin 128) :
    (iblk1 V c 0 t : Vec Ideal S4000x128 .f32) (ix2 p k)
      = (V c main_v30 : Vec Ideal S100000x128 .f32) (ix2 ⟨t.val * 4000 + p.val, by have := t_lt t; have := p.isLt; omega⟩ k) := by
  obtain ⟨e0, e1, -⟩ := idx_facts t
  unfold iblk1
  rw [View.read_apply]
  show V c main_v30 _ = V c main_v30 _
  congr 1
  funext a
  apply Fin.ext
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

/-- The count window's block: row p is row 4000 t + p of the count column. -/
theorem blk_c (c : Dev nD) (t : Fin cfg1.N) (p : Fin 4000) :
    (iblk1 V c 1 t : Vec Ideal S4000x1 .f32) (ix2 p (0 : Fin 1))
      = (V c main_v35 : Vec Ideal S100000x1 .f32) (ix2 ⟨t.val * 4000 + p.val, by have := t_lt t; have := p.isLt; omega⟩ (0 : Fin 1)) := by
  obtain ⟨-, -, e0, e1, -⟩ := idx_facts t
  unfold iblk1
  rw [View.read_apply]
  show V c main_v35 _ = V c main_v35 _
  congr 1
  funext a
  apply Fin.ext
  match a with
  | ⟨0, _⟩ => show win1_1.index t (0 : Fin 2) * 4000 + 1 * p.val = t.val * 4000 + p.val; rw [e0]; omega
  | ⟨1, _⟩ => show win1_1.index t (1 : Fin 2) * 1 + 1 * 0 = 0; rw [e1]

/-- The nodes' own rows: row p of the block is row 4000 t + p of the array. -/
theorem blk_r (c : Dev nD) (t : Fin cfg1.N) (p : Fin 4000) (k : Fin 128) :
    (iblk1 V c 2 t : Vec Ideal S4000x128 .f32) (ix2 p k)
      = (V c main_v20 : Vec Ideal S100000x128 .f32) (ix2 ⟨t.val * 4000 + p.val, by have := t_lt t; have := p.isLt; omega⟩ k) := by
  obtain ⟨-, -, -, -, e0, e1, -⟩ := idx_facts t
  unfold iblk1
  rw [View.read_apply]
  show V c main_v20 _ = V c main_v20 _
  congr 1
  funext a
  apply Fin.ext
  match a with
  | ⟨0, _⟩ => show win1_2.index t (0 : Fin 2) * 4000 + 1 * p.val = t.val * 4000 + p.val; rw [e0]; omega
  | ⟨1, _⟩ => show win1_2.index t (1 : Fin 2) * 128 + 1 * k.val = k.val; rw [e1]; omega

/-- The two weight matrices and the bias row are staged whole. -/
theorem blk_wl (c : Dev nD) (t : Fin cfg1.N) : (iblk1 V c 3 t : Vec Ideal S128x128 .f32) = V c main_arg5 := by
  obtain ⟨-, -, -, -, -, -, e0, e1, -⟩ := idx_facts t
  funext j
  unfold iblk1
  rw [View.read_apply]
  show V c main_arg5 _ = V c main_arg5 _
  congr 1
  funext a
  apply Fin.ext
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

theorem blk_wr (c : Dev nD) (t : Fin cfg1.N) : (iblk1 V c 4 t : Vec Ideal S128x128 .f32) = V c main_arg6 := by
  obtain ⟨-, -, -, -, -, -, -, -, e0, e1, -⟩ := idx_facts t
  funext j
  unfold iblk1
  rw [View.read_apply]
  show V c main_arg6 _ = V c main_arg6 _
  congr 1
  funext a
  apply Fin.ext
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

theorem blk_b (c : Dev nD) (t : Fin cfg1.N) : (iblk1 V c 5 t : Vec Ideal S1x128 .f32) = V c main_v36 := by
  obtain ⟨-, -, -, -, -, -, -, -, -, -, e0, e1, -⟩ := idx_facts t
  funext j
  unfold iblk1
  rw [View.read_apply]
  show V c main_v36 _ = V c main_v36 _
  congr 1
  funext a
  apply Fin.ext
  match a with
  | ⟨0, _⟩ => show win1_5.index t (0 : Fin 2) * 1 + 1 * (j 0).val = (j 0).val; rw [e0]; omega
  | ⟨1, _⟩ => show win1_5.index t (1 : Fin 2) * 128 + 1 * (j 1).val = (j 1).val; rw [e1]; omega

/-- The whole input arrays' layer. -/
abbrev G (c : Dev nD) : Vec Ideal S100000x128 .f32 :=
  Cert.Sage.layer true (V c main_v30) (V c main_v35) (V c main_v20) (V c main_arg5) (V c main_arg6) (V c main_v36)

/-- What point t writes back is block t of the whole arrays' layer. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz]
  simp only [View.ld_unit_zero (S := S4000x128) hz, View.ld_unit_zero (S := S4000x1) hz, View.ld_unit_zero (S := S128x128) hz,
    View.ld_unit_zero (S := S1x128) hz]
  rw [Cert.KernelIdeal.Pay.pay1_eq, blk_wl V c t, blk_wr V c t, blk_b V c t]
  obtain ⟨-, -, -, -, -, -, -, -, -, -, -, -, e0, e1⟩ := idx_facts t
  funext j
  obtain ⟨p, q, rfl⟩ : ∃ (p : Fin 4000) (q : Fin 128), j = ix2 p q := ⟨j 0, j 1, eq_ix2 j⟩
  have hemb : ((cfg1.win 6).blk t).view.emb (ix2 p q)
      = (ix2 ⟨t.val * 4000 + p.val, by have := t_lt t; have := p.isLt; omega⟩ q : S100000x128.Idx) := by
    funext a
    apply Fin.ext
    match a with
    | ⟨0, _⟩ => show win1_6.index t (0 : Fin 2) * 4000 + 1 * p.val = t.val * 4000 + p.val; rw [e0]; omega
    | ⟨1, _⟩ => show win1_6.index t (1 : Fin 2) * 128 + 1 * q.val = q.val; rw [e1]; omega
  rw [View.read_apply, hemb]
  exact Cert.Sage.layer_block true (V c main_v30) (V c main_v35) (V c main_v20) (V c main_arg5) (V c main_arg6) (V c main_v36)
    (iblk1 V c 0 t) (iblk1 V c 1 t) (iblk1 V c 2 t) (t.val * 4000) (by have := t_lt t; omega)
    (fun p k => blk_s V c t p k) (fun p => blk_c V c t p) (fun p k => blk_r V c t p k) p q

/-- An index of the array is in point t's block iff each coordinate is in the block's range. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v37).slice (win1_6.rect t)).set ↔ _
  rw [View.set_slice_whole, Rect.mem_set_unit]
  exact Iff.rfl

/-- Every row of the array lies in the block of the point numbered by the row's quotient by 4000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨-, -, -, -, -, -, -, -, -, -, -, -, e0, e1⟩ := idx_facts t
  have ht : t.val = (i 0).val / 4000 := rfl
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; rw [e0, ht]; omega
  | ⟨1, _⟩ => show win1_6.index t (1 : Fin 2) * 128 ≤ (i 1).val ∧ (i 1).val < win1_6.index t (1 : Fin 2) * 128 + 128; rw [e1]; omega

/-- The array the region's output window writes, after the region. -/
theorem final (c : Dev nD) :
    (dat1 (F := Ideal) V c).arrAt 6 cfg1.N
      = Cert.Sage.layer true (V c main_v30) (V c main_v35) (V c main_v20) (V c main_arg5) (V c main_arg6) (V c main_v36) :=
  (dat1 (F := Ideal) V c).arrAt_eq_of_cover 6 (G V c) (fun t _ => flushed_eq V c t) (cover)

end Cert.KernelIdeal.Region1

end
-- ==== Proof.Region2.lean ====
/-
  The third pallas_call's result array, whatever the buffers hold when the region is entered: the 25 grid points write
  back the 25 blocks of 4000 rows, each the layer of the point's input blocks, so the array ends as the layer of the whole
  input arrays.
-/
import proofs.«417667_j86053964743052_3_alg».proof.Proof.Gen.KernelIdeal.Frame
import proofs.«417667_j86053964743052_3_alg».proof.Proof.KernelPay
import Idealize.ShloMosaic.Lib.Pipeline.Value

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows and the output window sit at block (t, 0), the two weight
    matrices and the bias row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 25 := lt_of_lt_of_eq t.isLt (show cfg2.N = 25 from N_2)

/-- Row p of the summed-neighbour window's block at point t is row 4000 t + p of its array. -/
theorem blk_s (c : Dev nD) (t : Fin cfg2.N) (p : Fin 4000) (k : Fin 128) :
    (iblk2 V c 0 t : Vec Ideal S4000x128 .f32) (ix2 p k)
      = (V c main_v47 : Vec Ideal S100000x128 .f32) (ix2 ⟨t.val * 4000 + p.val, by have := t_lt t; have := p.isLt; omega⟩ k) := by
  obtain ⟨e0, e1, -⟩ := idx_facts t
  unfold iblk2
  rw [View.read_apply]
  show V c main_v47 _ = V c main_v47 _
  congr 1
  funext a
  apply Fin.ext
  match a with
  | ⟨0, _⟩ => show win2_0.index t (0 : Fin 2) * 4000 + 1 * p.val = t.val * 4000 + p.val; rw [e0]; omega
  | ⟨1, _⟩ => show win2_0.index t (1 : Fin 2) * 128 + 1 * k.val = k.val; rw [e1]; omega

/-- The count window's block: row p is row 4000 t + p of the count column. -/
theorem blk_c (c : Dev nD) (t : Fin cfg2.N) (p : Fin 4000) :
    (iblk2 V c 1 t : Vec Ideal S4000x1 .f32) (ix2 p (0 : Fin 1))
      = (V c main_v52 : Vec Ideal S100000x1 .f32) (ix2 ⟨t.val * 4000 + p.val, by have := t_lt t; have := p.isLt; omega⟩ (0 : Fin 1)) := by
  obtain ⟨-, -, e0, e1, -⟩ := idx_facts t
  unfold iblk2
  rw [View.read_apply]
  show V c main_v52 _ = V c main_v52 _
  congr 1
  funext a
  apply Fin.ext
  match a with
  | ⟨0, _⟩ => show win2_1.index t (0 : Fin 2) * 4000 + 1 * p.val = t.val * 4000 + p.val; rw [e0]; omega
  | ⟨1, _⟩ => show win2_1.index t (1 : Fin 2) * 1 + 1 * 0 = 0; rw [e1]

/-- The nodes' own rows: row p of the block is row 4000 t + p of the array. -/
theorem blk_r (c : Dev nD) (t : Fin cfg2.N) (p : Fin 4000) (k : Fin 128) :
    (iblk2 V c 2 t : Vec Ideal S4000x128 .f32) (ix2 p k)
      = (V c main_v37 : Vec Ideal S100000x128 .f32) (ix2 ⟨t.val * 4000 + p.val, by have := t_lt t; have := p.isLt; omega⟩ k) := by
  obtain ⟨-, -, -, -, e0, e1, -⟩ := idx_facts t
  unfold iblk2
  rw [View.read_apply]
  show V c main_v37 _ = V c main_v37 _
  congr 1
  funext a
  apply Fin.ext
  match a with
  | ⟨0, _⟩ => show win2_2.index t (0 : Fin 2) * 4000 + 1 * p.val = t.val * 4000 + p.val; rw [e0]; omega
  | ⟨1, _⟩ => show win2_2.index t (1 : Fin 2) * 128 + 1 * k.val = k.val; rw [e1]; omega

/-- The two weight matrices and the bias row are staged whole. -/
theorem blk_wl (c : Dev nD) (t : Fin cfg2.N) : (iblk2 V c 3 t : Vec Ideal S128x128 .f32) = V c main_v55 := by
  obtain ⟨-, -, -, -, -, -, e0, e1, -⟩ := idx_facts t
  funext j
  unfold iblk2
  rw [View.read_apply]
  show V c main_v55 _ = V c main_v55 _
  congr 1
  funext a
  apply Fin.ext
  match a with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega

theorem blk_wr (c : Dev nD) (t : Fin cfg2.N) : (iblk2 V c 4 t : Vec Ideal S128x128 .f32) = V c main_v58 := by
  obtain ⟨-, -, -, -, -, -, -, -, e0, e1, -⟩ := idx_facts t
  funext j
  unfold iblk2
  rw [View.read_apply]
  show V c main_v58 _ = V c main_v58 _
  congr 1
  funext a
  apply Fin.ext
  match a with
  | ⟨0, _⟩ => show win2_4.index t (0 : Fin 2) * 128 + 1 * (j 0).val = (j 0).val; rw [e0]; omega
  | ⟨1, _⟩ => show win2_4.index t (1 : Fin 2) * 128 + 1 * (j 1).val = (j 1).val; rw [e1]; omega

theorem blk_b (c : Dev nD) (t : Fin cfg2.N) : (iblk2 V c 5 t : Vec Ideal S1x128 .f32) = V c main_v62 := by
  obtain ⟨-, -, -, -, -, -, -, -, -, -, e0, e1, -⟩ := idx_facts t
  funext j
  unfold iblk2
  rw [View.read_apply]
  show V c main_v62 _ = V c main_v62 _
  congr 1
  funext a
  apply Fin.ext
  match a with
  | ⟨0, _⟩ => show win2_5.index t (0 : Fin 2) * 1 + 1 * (j 0).val = (j 0).val; rw [e0]; omega
  | ⟨1, _⟩ => show win2_5.index t (1 : Fin 2) * 128 + 1 * (j 1).val = (j 1).val; rw [e1]; omega

/-- The whole input arrays' layer. -/
abbrev G (c : Dev nD) : Vec Ideal S100000x128 .f32 :=
  Cert.Sage.layer false (V c main_v47) (V c main_v52) (V c main_v37) (V c main_v55) (V c main_v58) (V c main_v62)

/-- What point t writes back is block t of the whole arrays' layer. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 (F := Ideal) V c).after 6 t) = _
  rw [after2_6]
  unfold out2_6
  rw [View.canon_unit_zero hz]
  simp only [View.ld_unit_zero (S := S4000x128) hz, View.ld_unit_zero (S := S4000x1) hz, View.ld_unit_zero (S := S128x128) hz,
    View.ld_unit_zero (S := S1x128) hz]
  rw [Cert.KernelIdeal.Pay.pay2_eq, blk_wl V c t, blk_wr V c t, blk_b V c t]
  obtain ⟨-, -, -, -, -, -, -, -, -, -, -, -, e0, e1⟩ := idx_facts t
  funext j
  obtain ⟨p, q, rfl⟩ : ∃ (p : Fin 4000) (q : Fin 128), j = ix2 p q := ⟨j 0, j 1, eq_ix2 j⟩
  have hemb : ((cfg2.win 6).blk t).view.emb (ix2 p q)
      = (ix2 ⟨t.val * 4000 + p.val, by have := t_lt t; have := p.isLt; omega⟩ q : S100000x128.Idx) := by
    funext a
    apply Fin.ext
    match a with
    | ⟨0, _⟩ => show win2_6.index t (0 : Fin 2) * 4000 + 1 * p.val = t.val * 4000 + p.val; rw [e0]; omega
    | ⟨1, _⟩ => show win2_6.index t (1 : Fin 2) * 128 + 1 * q.val = q.val; rw [e1]; omega
  rw [View.read_apply, hemb]
  exact Cert.Sage.layer_block false (V c main_v47) (V c main_v52) (V c main_v37) (V c main_v55) (V c main_v58) (V c main_v62)
    (iblk2 V c 0 t) (iblk2 V c 1 t) (iblk2 V c 2 t) (t.val * 4000) (by have := t_lt t; omega)
    (fun p k => blk_s V c t p k) (fun p => blk_c V c t p) (fun p k => blk_r V c t p k) p q

/-- An index of the array is in point t's block iff each coordinate is in the block's range. -/
theorem mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v63).slice (win2_6.rect t)).set ↔ _
  rw [View.set_slice_whole, Rect.mem_set_unit]
  exact Iff.rfl

/-- Every row of the array lies in the block of the point numbered by the row's quotient by 4000. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 25 := N_2
  let t : Fin cfg2.N := ⟨(i 0).val / 4000, by rw [hN]; omega⟩
  obtain ⟨-, -, -, -, -, -, -, -, -, -, -, -, e0, e1⟩ := idx_facts t
  have ht : t.val = (i 0).val / 4000 := rfl
  refine ⟨t, flush2_6 t, ?_⟩
  rw [mem_blk]
  intro a
  match a with
  | ⟨0, _⟩ => show win2_6.index t (0 : Fin 2) * 4000 ≤ (i 0).val ∧ (i 0).val < win2_6.index t (0 : Fin 2) * 4000 + 4000; rw [e0, ht]; omega
  | ⟨1, _⟩ => show win2_6.index t (1 : Fin 2) * 128 ≤ (i 1).val ∧ (i 1).val < win2_6.index t (1 : Fin 2) * 128 + 128; rw [e1]; omega

/-- The array the region's output window writes, after the region. -/
theorem final (c : Dev nD) :
    (dat2 (F := Ideal) V c).arrAt 6 cfg2.N
      = Cert.Sage.layer false (V c main_v47) (V c main_v52) (V c main_v37) (V c main_v55) (V c main_v58) (V c main_v62) :=
  (dat2 (F := Ideal) V c).arrAt_eq_of_cover 6 (G V c) (fun t _ => flushed_eq V c t) (cover)

end Cert.KernelIdeal.Region2

end
-- ==== Proof.PadScatter.lean ====
/-
  Writing a one-column matrix into column 0 of a zero 128 x 128 matrix, and a one-entry vector into entry 0 of a zero
  128-vector (a scatter at the single start index 0 whose body keeps the update): column 0, and entry 0, of the result
  hold the update.
-/
import proofs.«417667_j86053964743052_3_alg».proof.Proof.Gen.KernelIdeal
import Idealize.ShloMosaic.Lib.ValueIdx
import Idealize.ShloMosaic.Lib.ValueIdxCoords

noncomputable section

namespace Cert.KernelIdeal.Pad

open Idealize.ShloMosaic Idealize.ShloMosaic.ValueIdx Cert.KernelIdeal

/-! ## A left fold read at one place -/

/-- A left fold none of whose steps changes the value at the place i leaves the value at i as it was. -/
theorem foldl_miss {β ι α : Type} (step : (ι → α) → β → (ι → α)) (i : ι) (L : List β)
    (h : ∀ r n, n ∈ L → step r n i = r i) (r : ι → α) : L.foldl step r i = r i := by
  induction L generalizing r with
  | nil => rfl
  | cons a t ih =>
    rw [List.foldl_cons, ih (fun r n hn => h r n (List.mem_cons_of_mem _ hn)) (step r a)]
    exact h r a (List.mem_cons.2 (Or.inl rfl))

/-- A left fold over a list without repeats in which exactly one step n0 writes the value v at the place i (whatever
    was there), every other step leaving the value at i alone, ends with v at i. -/
theorem foldl_hit {β ι α : Type} (step : (ι → α) → β → (ι → α)) (i : ι) (v : α) (n0 : β)
    (hhit : ∀ r, step r n0 i = v) (hmiss : ∀ r n, n ≠ n0 → step r n i = r i)
    (L : List β) (hn : n0 ∈ L) (hnd : L.Nodup) (r : ι → α) : L.foldl step r i = v := by
  induction L generalizing r with
  | nil => exact absurd hn (List.not_mem_nil)
  | cons a t ih =>
    rw [List.foldl_cons]
    rw [List.nodup_cons] at hnd
    by_cases ha : a = n0
    · subst ha
      rw [foldl_miss step i t (fun r n hn' => hmiss r n (fun e => hnd.1 (e ▸ hn')))]
      exact hhit r
    · exact ih ((List.mem_cons.1 hn).resolve_left (fun e => ha e.symm)) hnd.2 _

/-! ## Where an update index lands -/

/-- An update index lands at i exactly when start plus window coordinate is the coordinate of i on every axis. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = (((d.start j idx a + (d.window j a : Int)).toNat : Nat) : Int)
      omega
    · intro h2
      funext a
      apply Fin.ext
      show (d.start j idx a + (d.window j a : Int)).toNat = (i a).val
      rw [h2 a]; omega
  · rename_i h
    constructor
    · intro h'; cases h'
    · intro h2
      exfalso; apply h; intro a; rw [h2 a]
      have := (i a).isLt
      omega

/-- A scatter whose body keeps the update, read at a place i where exactly one update index j0 lands: the element of
    the update at j0. -/
theorem scatter_keep_at {s si u : Shape} {w : Nat} {α : Type} (d : ScatterDims s si u) (x : s.Idx → α)
    (idx : IVec si w) (upd : u.Idx → α) (i : s.Idx) (j0 : u.Idx) (hhit : d.resultIdx? j0 idx = some i)
    (hinj : ∀ j, d.resultIdx? j idx = some i → j = j0) :
    Host.scatter d (fun _ b => b) x idx upd i = upd j0 := by
  unfold Host.scatter
  refine foldl_hit _ i (upd j0) (u.rowMajor j0) ?_ ?_ _ (List.mem_finRange _) (List.nodup_finRange _) x
  · intro r
    simp only [Equiv.symm_apply_apply, hhit, if_true]
  · intro r n hne
    generalize h1 : d.resultIdx? (u.rowMajor.symm n) idx = o
    cases o with
    | none => rfl
    | some i1 =>
      have hi : i ≠ i1 := fun e => hne (by
        have := hinj _ (e ▸ h1)
        rw [← this, Equiv.apply_symm_apply])
      show (if i = i1 then _ else r i) = r i
      rw [if_neg hi]

/-! ## The two scatters of the program -/

/-- The one start index read off the indices is 0: the indices have a single entry, and it is 0. -/
theorem idx_toInt (idx : IVec S1 32) (hidx : idx (ix1 (0 : Fin 1)) = 0#32) (q : S1.Idx) : (idx q).toInt = 0 := by
  rw [eq_ix1_u0 q]
  show (idx (ix1 (0 : Fin 1))).toInt = 0
  rw [hidx]; rfl

/-- The matrix scatter starts at 0 on both axes. -/
theorem mat_start (idx : IVec S1 32) (hidx : idx (ix1 (0 : Fin 1)) = 0#32) (j : S128x1.Idx) (a : Fin 2) :
    scatter_S128x128_S1_S128x1_01_n_1_0.start j idx a = 0 := by
  unfold ScatterDims.start
  split
  · exact idx_toInt idx hidx _
  · rfl

/-- The window coordinate of the matrix scatter on an axis is the coordinate of the update index on that axis. -/
theorem mat_window (j : S128x1.Idx) (a : Fin 2) :
    scatter_S128x128_S1_S128x1_01_n_1_0.window j a = (j a).val := by
  match a with
  | ⟨0, _⟩ => rfl
  | ⟨1, _⟩ => rfl

/-- The vector scatter starts at 0. -/
theorem vec_start (idx : IVec S1 32) (hidx : idx (ix1 (0 : Fin 1)) = 0#32) (j : S1.Idx) (a : Fin 1) :
    scatter_S128_S1_S1_0_n_0_0.start j idx a = 0 := by
  unfold ScatterDims.start
  split
  · exact idx_toInt idx hidx _
  · rfl

/-- The window coordinate of the vector scatter is the coordinate of the update index. -/
theorem vec_window (j : S1.Idx) (a : Fin 1) :
    scatter_S128_S1_S1_0_n_0_0.window j a = (j a).val := by
  match a with
  | ⟨0, _⟩ => rfl

theorem padMat_col0 {α : Type} (x : S128x128.Idx → α) (idx : IVec S1 32) (hidx : idx (ix1 (0 : Fin 1)) = 0#32)
    (W : S128x1.Idx → α) (k : Fin 128) :
    Host.scatter scatter_S128x128_S1_S128x1_01_n_1_0 (fun _ b => b) x idx W (ix2 k (0 : Fin 128)) = W (ix2 k (0 : Fin 1)) := by
  refine scatter_keep_at _ x idx W _ (ix2 k (0 : Fin 1)) ?_ ?_
  · rw [resultIdx?_eq_some_iff]
    intro a
    rw [mat_start idx hidx, mat_window]
    match a with
    | ⟨0, _⟩ => exact Int.zero_add _
    | ⟨1, _⟩ => exact Int.zero_add _
  · intro j hj
    rw [resultIdx?_eq_some_iff] at hj
    have h0 := hj 0
    rw [mat_start idx hidx, mat_window] at h0
    funext a
    match a with
    | ⟨0, _⟩ =>
      apply Fin.ext
      have : ((j 0).val : Int) = (k.val : Int) := by simpa using h0
      exact_mod_cast this
    | ⟨1, _⟩ => exact Subsingleton.elim (α := Fin 1) _ _

theorem padVec_0 {α : Type} (x : S128.Idx → α) (idx : IVec S1 32) (hidx : idx (ix1 (0 : Fin 1)) = 0#32)
    (b : S1.Idx → α) :
    Host.scatter scatter_S128_S1_S1_0_n_0_0 (fun _ b => b) x idx b (ix1 (0 : Fin 128)) = b (ix1 (0 : Fin 1)) := by
  refine scatter_keep_at _ x idx b _ (ix1 (0 : Fin 1)) ?_ ?_
  · rw [resultIdx?_eq_some_iff]
    intro a
    rw [vec_start idx hidx, vec_window]
    match a with
    | ⟨0, _⟩ => exact Int.zero_add _
  · intro j _
    exact eq_ix1_u0 j

end Cert.KernelIdeal.Pad

end
-- ==== Proof.RefLayers.lean ====
/-
  The reference program's three layers, read through its generated run one operation at a time: each layer's array is
  `Cert.Sage.layer` of the summed neighbour rows, the neighbour counts, the previous layer's array, the two weight
  matrices and the bias. The counts and the bias enter through a column and a row with the same entries, whatever
  arrays carry them; the last layer, one column wide, is column 0 of the layer over any two 128 x 128 matrices whose
  column 0 holds the one-column weights.
-/
import proofs.«417667_j86053964743052_3_alg».proof.Proof.Gen.ReferenceIdeal.Run
import proofs.«417667_j86053964743052_3_alg».proof.Proof.Gen.ReferenceIdeal.Read
import proofs.«417667_j86053964743052_3_alg».proof.Proof.Spec
import proofs.«417667_j86053964743052_3_alg».proof.Proof.LibMatmul

noncomputable section

namespace Cert.ReferenceIdeal.Layers

open Idealize.ShloMosaic Idealize.ShloMosaic.ValueIdx Cert.ReferenceIdeal Cert.ReferenceIdeal.Read

variable (x0 : FVec Ideal S100000x128 .f32) (x1 : IVec S2x1600000 32) (x2 x3 : FVec Ideal S128x128 .f32) (x4 : FVec Ideal S128 .f32)
  (x5 x6 : FVec Ideal S128x128 .f32) (x7 : FVec Ideal S128 .f32) (x8 x9 : FVec Ideal S128x1 .f32) (x10 : FVec Ideal S1 .f32)

/-- The first layer's divisor at (r, k): the count of node r, or one if that is larger. -/
theorem den1 (r : Fin 100000) (k : Fin 128) :
    val_main_v21 (F := Ideal) x1 (ix2 r k) = max (val_main_v17 (F := Ideal) x1 (ix1 r)) Cert.Sage.one := by
  have e : idx_main_v20 (idx_main_v21 (ix2 r k)) = ix1 r := funext fun a => Fin.ext (by match a with | ⟨0, _⟩ => rfl)
  rw [val_main_v21_apply, val_main_v20_apply, val_main_v19_apply, val_main_v18_apply, val_main_cst_3_apply, e]
  rfl

/-- The first layer's bias array at (r, q): the bias entry q. -/
theorem bias1 (r : Fin 100000) (q : Fin 128) : val_main_v27 (F := Ideal) x4 (ix2 r q) = x4 (ix1 q) := by
  have e : idx_main_v26 (idx_main_v27 (ix2 r q)) = ix1 q := funext fun a => Fin.ext (by match a with | ⟨0, _⟩ => rfl)
  rw [val_main_v27_apply, val_main_v26_apply, e]

/-- The first layer. -/
theorem layer1 (cntc : FVec Ideal S100000x1 .f32) (brow : FVec Ideal S1x128 .f32)
    (hc : ∀ r : Fin 100000, cntc (ix2 r (0 : Fin 1)) = val_main_v17 (F := Ideal) x1 (ix1 r))
    (hb : ∀ q : Fin 128, brow (ix2 (0 : Fin 1) q) = x4 (ix1 q)) :
    val_main_v29 (F := Ideal) x0 x1 x2 x3 x4
      = Cert.Sage.layer true (val_main_v13 (F := Ideal) x0 x1) cntc x0 x2 x3 brow := by
  funext i
  obtain ⟨r, q, rfl⟩ : ∃ (r : Fin 100000) (q : Fin 128), i = ix2 r q := ⟨i 0, i 1, eq_ix2 i⟩
  have h1 : (∑ k : Fin 128, val_main_v22 (F := Ideal) x0 x1 (lidx_main_v23 (ix2 r q) k) * x2 (ridx_main_v23 (ix2 r q) k))
      = ∑ k : Fin 128, Ideal.div (val_main_v13 (F := Ideal) x0 x1 (ix2 r k)) (max (val_main_v17 (F := Ideal) x1 (ix1 r)) Cert.Sage.one)
          * x2 (ix2 k q) := by
    refine Finset.sum_congr rfl fun k _ => ?_
    have el : lidx_main_v23 (ix2 r q) k = ix2 r k := funext fun a => Fin.ext (by match a with | ⟨0, _⟩ => rfl | ⟨1, _⟩ => rfl)
    have er : ridx_main_v23 (ix2 r q) k = ix2 k q := funext fun a => Fin.ext (by match a with | ⟨0, _⟩ => rfl | ⟨1, _⟩ => rfl)
    rw [el, er, val_main_v22_apply, den1, Ideal.hostDivf_def]
  have h2 : (∑ k : Fin 128, x0 (lidx_main_v24 (ix2 r q) k) * x3 (ridx_main_v24 (ix2 r q) k))
      = ∑ k : Fin 128, x0 (ix2 r k) * x3 (ix2 k q) := by
    refine Finset.sum_congr rfl fun k _ => ?_
    have el : lidx_main_v24 (ix2 r q) k = ix2 r k := funext fun a => Fin.ext (by match a with | ⟨0, _⟩ => rfl | ⟨1, _⟩ => rfl)
    have er : ridx_main_v24 (ix2 r q) k = ix2 k q := funext fun a => Fin.ext (by match a with | ⟨0, _⟩ => rfl | ⟨1, _⟩ => rfl)
    rw [el, er]
  rw [Cert.Sage.layer_apply, val_main_v29_apply, val_main_call0_v0_apply, val_main_call0_cst_apply, val_main_v28_apply,
    val_main_v25_apply, bias1, val_main_v23_apply, val_main_v24_apply, hc r, hb q, h1, h2]
  unfold Cert.Sage.act Cert.Sage.entry
  rw [if_pos rfl, Ideal.maximumf_def, Ideal.addf_def, Ideal.addf_def, Ideal.ofBits_def]

/-- The second layer's divisor at (r, k): the count of node r, or one if that is larger. -/
theorem den2 (r : Fin 100000) (k : Fin 128) :
    val_main_v47 (F := Ideal) x1 (ix2 r k) = max (val_main_v43 (F := Ideal) x1 (ix1 r)) Cert.Sage.one := by
  have e : idx_main_v46 (idx_main_v47 (ix2 r k)) = ix1 r := funext fun a => Fin.ext (by match a with | ⟨0, _⟩ => rfl)
  rw [val_main_v47_apply, val_main_v46_apply, val_main_v45_apply, val_main_v44_apply, val_main_cst_9_apply, e]
  rfl

/-- The second layer's bias array at (r, q): the bias entry q. -/
theorem bias2 (r : Fin 100000) (q : Fin 128) : val_main_v53 (F := Ideal) x7 (ix2 r q) = x7 (ix1 q) := by
  have e : idx_main_v52 (idx_main_v53 (ix2 r q)) = ix1 q := funext fun a => Fin.ext (by match a with | ⟨0, _⟩ => rfl)
  rw [val_main_v53_apply, val_main_v52_apply, e]

/-- The second layer. -/
theorem layer2 (cntc : FVec Ideal S100000x1 .f32) (brow : FVec Ideal S1x128 .f32)
    (hc : ∀ r : Fin 100000, cntc (ix2 r (0 : Fin 1)) = val_main_v43 (F := Ideal) x1 (ix1 r))
    (hb : ∀ q : Fin 128, brow (ix2 (0 : Fin 1) q) = x7 (ix1 q)) :
    val_main_v55 (F := Ideal) x0 x1 x2 x3 x4 x5 x6 x7
      = Cert.Sage.layer true (val_main_v39 (F := Ideal) x0 x1 x2 x3 x4) cntc (val_main_v29 (F := Ideal) x0 x1 x2 x3 x4) x5 x6 brow := by
  funext i
  obtain ⟨r, q, rfl⟩ : ∃ (r : Fin 100000) (q : Fin 128), i = ix2 r q := ⟨i 0, i 1, eq_ix2 i⟩
  have h1 : (∑ k : Fin 128, val_main_v48 (F := Ideal) x0 x1 x2 x3 x4 (lidx_main_v49 (ix2 r q) k) * x5 (ridx_main_v49 (ix2 r q) k))
      = ∑ k : Fin 128, Ideal.div (val_main_v39 (F := Ideal) x0 x1 x2 x3 x4 (ix2 r k))
          (max (val_main_v43 (F := Ideal) x1 (ix1 r)) Cert.Sage.one) * x5 (ix2 k q) := by
    refine Finset.sum_congr rfl fun k _ => ?_
    have el : lidx_main_v49 (ix2 r q) k = ix2 r k := funext fun a => Fin.ext (by match a with | ⟨0, _⟩ => rfl | ⟨1, _⟩ => rfl)
    have er : ridx_main_v49 (ix2 r q) k = ix2 k q := funext fun a => Fin.ext (by match a with | ⟨0, _⟩ => rfl | ⟨1, _⟩ => rfl)
    rw [el, er, val_main_v48_apply, den2, Ideal.hostDivf_def]
  have h2 : (∑ k : Fin 128, val_main_v29 (F := Ideal) x0 x1 x2 x3 x4 (lidx_main_v50 (ix2 r q) k) * x6 (ridx_main_v50 (ix2 r q) k))
      = ∑ k : Fin 128, val_main_v29 (F := Ideal) x0 x1 x2 x3 x4 (ix2 r k) * x6 (ix2 k q) := by
    refine Finset.sum_congr rfl fun k _ => ?_
    have el : lidx_main_v50 (ix2 r q) k = ix2 r k := funext fun a => Fin.ext (by match a with | ⟨0, _⟩ => rfl | ⟨1, _⟩ => rfl)
    have er : ridx_main_v50 (ix2 r q) k = ix2 k q := funext fun a => Fin.ext (by match a with | ⟨0, _⟩ => rfl | ⟨1, _⟩ => rfl)
    rw [el, er]
  rw [Cert.Sage.layer_apply, val_main_v55_apply, val_main_call1_v0_apply, val_main_call1_cst_apply, val_main_v54_apply,
    val_main_v51_apply, bias2, val_main_v49_apply, val_main_v50_apply, hc r, hb q, h1, h2]
  unfold Cert.Sage.act Cert.Sage.entry
  rw [if_pos rfl, Ideal.maximumf_def, Ideal.addf_def, Ideal.addf_def, Ideal.ofBits_def]

/-- The last layer's divisor at (r, k): the count of node r, or one if that is larger. -/
theorem den3 (r : Fin 100000) (k : Fin 128) :
    val_main_v73 (F := Ideal) x1 (ix2 r k) = max (val_main_v69 (F := Ideal) x1 (ix1 r)) Cert.Sage.one := by
  have e : idx_main_v72 (idx_main_v73 (ix2 r k)) = ix1 r := funext fun a => Fin.ext (by match a with | ⟨0, _⟩ => rfl)
  rw [val_main_v73_apply, val_main_v72_apply, val_main_v71_apply, val_main_v70_apply, val_main_cst_15_apply, e]
  rfl

/-- The last layer's bias array at (r, 0): the one bias entry. -/
theorem bias3 (r : Fin 100000) : val_main_v79 (F := Ideal) x10 (ix2 r (0 : Fin 1)) = x10 (ix1 (0 : Fin 1)) := by
  have e : idx_main_v78 (idx_main_v79 (ix2 r (0 : Fin 1))) = ix1 (0 : Fin 1) := funext fun a => Fin.ext (by match a with | ⟨0, _⟩ => rfl)
  rw [val_main_v79_apply, val_main_v78_apply, e]

/-- The last layer, entry (r, 0). -/
theorem layer3 (cntc : FVec Ideal S100000x1 .f32) (brow : FVec Ideal S1x128 .f32) (Wlp Wrp : FVec Ideal S128x128 .f32)
    (hc : ∀ r : Fin 100000, cntc (ix2 r (0 : Fin 1)) = val_main_v69 (F := Ideal) x1 (ix1 r))
    (hb : brow (ix2 (0 : Fin 1) (0 : Fin 128)) = x10 (ix1 (0 : Fin 1)))
    (hl : ∀ k : Fin 128, Wlp (ix2 k (0 : Fin 128)) = x8 (ix2 k (0 : Fin 1)))
    (hr : ∀ k : Fin 128, Wrp (ix2 k (0 : Fin 128)) = x9 (ix2 k (0 : Fin 1)))
    (r : Fin 100000) :
    val_main_v80 (F := Ideal) x0 x1 x2 x3 x4 x5 x6 x7 x8 x9 x10 (ix2 r (0 : Fin 1))
      = Cert.Sage.layer false (val_main_v65 (F := Ideal) x0 x1 x2 x3 x4 x5 x6 x7) cntc (val_main_v55 (F := Ideal) x0 x1 x2 x3 x4 x5 x6 x7) Wlp Wrp brow
          (ix2 r (0 : Fin 128)) := by
  have h1 : (∑ k : Fin 128, val_main_v74 (F := Ideal) x0 x1 x2 x3 x4 x5 x6 x7 (lidx_main_v75 (ix2 r (0 : Fin 1)) k)
        * x8 (ridx_main_v75 (ix2 r (0 : Fin 1)) k))
      = ∑ k : Fin 128, Ideal.div (val_main_v65 (F := Ideal) x0 x1 x2 x3 x4 x5 x6 x7 (ix2 r k))
          (max (val_main_v69 (F := Ideal) x1 (ix1 r)) Cert.Sage.one) * Wlp (ix2 k (0 : Fin 128)) := by
    refine Finset.sum_congr rfl fun k _ => ?_
    have el : lidx_main_v75 (ix2 r (0 : Fin 1)) k = ix2 r k := funext fun a => Fin.ext (by match a with | ⟨0, _⟩ => rfl | ⟨1, _⟩ => rfl)
    have er : ridx_main_v75 (ix2 r (0 : Fin 1)) k = ix2 k (0 : Fin 1) := funext fun a => Fin.ext (by match a with | ⟨0, _⟩ => rfl | ⟨1, _⟩ => rfl)
    rw [el, er, val_main_v74_apply, den3, Ideal.hostDivf_def, hl k]
  have h2 : (∑ k : Fin 128, val_main_v55 (F := Ideal) x0 x1 x2 x3 x4 x5 x6 x7 (lidx_main_v76 (ix2 r (0 : Fin 1)) k)
        * x9 (ridx_main_v76 (ix2 r (0 : Fin 1)) k))
      = ∑ k : Fin 128, val_main_v55 (F := Ideal) x0 x1 x2 x3 x4 x5 x6 x7 (ix2 r k) * Wrp (ix2 k (0 : Fin 128)) := by
    refine Finset.sum_congr rfl fun k _ => ?_
    have el : lidx_main_v76 (ix2 r (0 : Fin 1)) k = ix2 r k := funext fun a => Fin.ext (by match a with | ⟨0, _⟩ => rfl | ⟨1, _⟩ => rfl)
    have er : ridx_main_v76 (ix2 r (0 : Fin 1)) k = ix2 k (0 : Fin 1) := funext fun a => Fin.ext (by match a with | ⟨0, _⟩ => rfl | ⟨1, _⟩ => rfl)
    rw [el, er, hr k]
  rw [Cert.Sage.layer_apply, val_main_v80_apply, val_main_v77_apply, bias3, val_main_v75_apply, val_main_v76_apply, hc r, hb, h1, h2]
  unfold Cert.Sage.act Cert.Sage.entry
  rw [if_neg Bool.false_ne_true, Ideal.addf_def, Ideal.addf_def]

end Cert.ReferenceIdeal.Layers

end
-- ==== Proof.KernelValue.lean ====
/-
  The kernel program's result, stage by stage. Between the regions the host operations gather the previous layer's rows
  along the edges' sources and sum them at the edges' targets — the same operations the reference applies —, so each
  region is entered with the reference's summed rows and counts, and leaves the reference's layer:
  region 0 leaves the first layer, region 1 the second, and column 0 of what region 2 leaves is the result.
-/
import proofs.«417667_j86053964743052_3_alg».proof.Proof.KernelRun
import proofs.«417667_j86053964743052_3_alg».proof.Proof.Region0
import proofs.«417667_j86053964743052_3_alg».proof.Proof.Region1
import proofs.«417667_j86053964743052_3_alg».proof.Proof.Region2
import proofs.«417667_j86053964743052_3_alg».proof.Proof.PadScatter
import proofs.«417667_j86053964743052_3_alg».proof.Proof.RefLayers
import Idealize.ShloMosaic.Lib.StableHlo.Run
import Idealize.ShloMosaic.Lib.ValueLayout
import Idealize.ShloMosaic.Lib.Pipeline.Value

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- The argument arrays as launched. -/
abbrev a0 (c : Dev nD) : FVec Ideal S100000x128 .f32 := m ((c : Thread nD τ).loc main_arg0)
abbrev a1 (c : Dev nD) : IVec S2x1600000 32 := m ((c : Thread nD τ).loc main_arg1)
abbrev a2 (c : Dev nD) : FVec Ideal S128x128 .f32 := m ((c : Thread nD τ).loc main_arg2)
abbrev a3 (c : Dev nD) : FVec Ideal S128x128 .f32 := m ((c : Thread nD τ).loc main_arg3)
abbrev a4 (c : Dev nD) : FVec Ideal S128 .f32 := m ((c : Thread nD τ).loc main_arg4)
abbrev a5 (c : Dev nD) : FVec Ideal S128x128 .f32 := m ((c : Thread nD τ).loc main_arg5)
abbrev a6 (c : Dev nD) : FVec Ideal S128x128 .f32 := m ((c : Thread nD τ).loc main_arg6)
abbrev a7 (c : Dev nD) : FVec Ideal S128 .f32 := m ((c : Thread nD τ).loc main_arg7)
abbrev a8 (c : Dev nD) : FVec Ideal S128x1 .f32 := m ((c : Thread nD τ).loc main_arg8)
abbrev a9 (c : Dev nD) : FVec Ideal S128x1 .f32 := m ((c : Thread nD τ).loc main_arg9)
abbrev a10 (c : Dev nD) : FVec Ideal S1 .f32 := m ((c : Thread nD τ).loc main_arg10)

/-! ## Before region 0 -/

theorem W1_arg0 (c : Dev nD) : W1 m ρ c (Proc.devRef .tc main_arg0) = a0 m c := by
  show StableHlo.after hostOps0 (W0 m ρ c) (Proc.devRef .tc main_arg0) = _
  after_results_simp

theorem W1_arg2 (c : Dev nD) : W1 m ρ c (Proc.devRef .tc main_arg2) = a2 m c := by
  show StableHlo.after hostOps0 (W0 m ρ c) (Proc.devRef .tc main_arg2) = _
  after_results_simp

theorem W1_arg3 (c : Dev nD) : W1 m ρ c (Proc.devRef .tc main_arg3) = a3 m c := by
  show StableHlo.after hostOps0 (W0 m ρ c) (Proc.devRef .tc main_arg3) = _
  after_results_simp

/-- The edges' sources and targets, as the first stretch of host operations leaves them. -/
theorem W1_src (c : Dev nD) : W1 m ρ c (Proc.devRef .tc main_v1) = val_main_v1 (F := Ideal) (a1 m c) := by
  show StableHlo.after hostOps0 (W0 m ρ c) (Proc.devRef .tc main_v1) = _
  after_results_simp
  rfl

theorem W1_dst (c : Dev nD) : W1 m ρ c (Proc.devRef .tc main_v3) = val_main_v3 (F := Ideal) (a1 m c) := by
  show StableHlo.after hostOps0 (W0 m ρ c) (Proc.devRef .tc main_v3) = _
  after_results_simp
  rfl

/-- The input rows summed at the edges' targets. -/
theorem W1_s (c : Dev nD) : W1 m ρ c (Proc.devRef .tc main_v13) = val_main_v13 (F := Ideal) (a0 m c) (a1 m c) := by
  show StableHlo.after hostOps0 (W0 m ρ c) (Proc.devRef .tc main_v13) = _
  after_results_simp
  rfl

/-- The neighbour counts, as a column. -/
theorem W1_cnt (c : Dev nD) :
    W1 m ρ c (Proc.devRef .tc main_v18) = shapeCast S100000x1 (val_main_v17 (F := Ideal) (a1 m c)) shapeCasts_S100000_S100000x1 := by
  show StableHlo.after hostOps0 (W0 m ρ c) (Proc.devRef .tc main_v18) = _
  after_results_simp
  rfl

/-- The first bias, as a row. -/
theorem W1_b (c : Dev nD) : W1 m ρ c (Proc.devRef .tc main_v19) = shapeCast S1x128 (a4 m c) shapeCasts_S128_S1x128 := by
  show StableHlo.after hostOps0 (W0 m ρ c) (Proc.devRef .tc main_v19) = _
  after_results_simp
  rfl

/-- A vector of 100000 entries cast to a column reads, at (r, 0), its entry r. -/
theorem col_apply {α : Type} (v : S100000.Idx → α) (h : S100000.ShapeCasts S100000x1) (r : Fin 100000) :
    shapeCast S100000x1 v h (ix2 r (0 : Fin 1)) = v (ix1 r) :=
  shapeCast_apply v h _ _ (by
    rw [Shape.rowMajor_val_two, Shape.rowMajor_val_one]
    show r.val = r.val * 1 + 0
    omega)

/-- A vector of 128 entries cast to a row reads, at (0, q), its entry q. -/
theorem row_apply {α : Type} (v : S128.Idx → α) (h : S128.ShapeCasts S1x128) (q : Fin 128) :
    shapeCast S1x128 v h (ix2 (0 : Fin 1) q) = v (ix1 q) :=
  shapeCast_a_1a_apply v h 0 q

/-! ## Region 0 leaves the first layer -/

theorem layer1 (c : Dev nD) :
    W2 m ρ c (Proc.devRef .tc main_v20) = val_main_v29 (F := Ideal) (a0 m c) (a1 m c) (a2 m c) (a3 m c) (a4 m c) := by
  refine ((W2_arr m ρ c 6).trans (Cert.KernelIdeal.Region0.final (V1 m ρ) c)).trans ?_
  show Cert.Sage.layer true (W1 m ρ c (Proc.devRef .tc main_v13)) (W1 m ρ c (Proc.devRef .tc main_v18))
    (W1 m ρ c (Proc.devRef .tc main_arg0)) (W1 m ρ c (Proc.devRef .tc main_arg2)) (W1 m ρ c (Proc.devRef .tc main_arg3))
    (W1 m ρ c (Proc.devRef .tc main_v19)) = _
  rw [W1_s, W1_cnt, W1_arg0, W1_arg2, W1_arg3, W1_b]
  exact (Cert.ReferenceIdeal.Layers.layer1 (a0 m c) (a1 m c) (a2 m c) (a3 m c) (a4 m c) _ _ (fun r => col_apply _ _ r) (fun q => row_apply _ _ q)).symm

/-! ## Before region 1 -/

theorem W2_src (c : Dev nD) : W2 m ρ c (Proc.devRef .tc main_v1) = val_main_v1 (F := Ideal) (a1 m c) :=
  (W2_of_ne m ρ c main_v1 (by decide)).trans (W1_src m ρ c)

theorem W2_dst (c : Dev nD) : W2 m ρ c (Proc.devRef .tc main_v3) = val_main_v3 (F := Ideal) (a1 m c) :=
  (W2_of_ne m ρ c main_v3 (by decide)).trans (W1_dst m ρ c)

/-- An argument no host operation and no region has written yet holds its launch contents. -/
theorem W2_arg5 (c : Dev nD) : W2 m ρ c (Proc.devRef .tc main_arg5) = a5 m c := by
  refine (W2_of_ne m ρ c main_arg5 (by decide)).trans ?_
  show StableHlo.after hostOps0 (W0 m ρ c) (Proc.devRef .tc main_arg5) = _
  after_results_simp

theorem W2_arg6 (c : Dev nD) : W2 m ρ c (Proc.devRef .tc main_arg6) = a6 m c := by
  refine (W2_of_ne m ρ c main_arg6 (by decide)).trans ?_
  show StableHlo.after hostOps0 (W0 m ρ c) (Proc.devRef .tc main_arg6) = _
  after_results_simp

theorem W2_arg7 (c : Dev nD) : W2 m ρ c (Proc.devRef .tc main_arg7) = a7 m c := by
  refine (W2_of_ne m ρ c main_arg7 (by decide)).trans ?_
  show StableHlo.after hostOps0 (W0 m ρ c) (Proc.devRef .tc main_arg7) = _
  after_results_simp

theorem W2_arg8 (c : Dev nD) : W2 m ρ c (Proc.devRef .tc main_arg8) = a8 m c := by
  refine (W2_of_ne m ρ c main_arg8 (by decide)).trans ?_
  show StableHlo.after hostOps0 (W0 m ρ c) (Proc.devRef .tc main_arg8) = _
  after_results_simp

theorem W2_arg9 (c : Dev nD) : W2 m ρ c (Proc.devRef .tc main_arg9) = a9 m c := by
  refine (W2_of_ne m ρ c main_arg9 (by decide)).trans ?_
  show StableHlo.after hostOps0 (W0 m ρ c) (Proc.devRef .tc main_arg9) = _
  after_results_simp

theorem W2_arg10 (c : Dev nD) : W2 m ρ c (Proc.devRef .tc main_arg10) = a10 m c := by
  refine (W2_of_ne m ρ c main_arg10 (by decide)).trans ?_
  show StableHlo.after hostOps0 (W0 m ρ c) (Proc.devRef .tc main_arg10) = _
  after_results_simp

/-- The first layer's rows summed at the edges' targets. -/
theorem W3_s (c : Dev nD) : W3 m ρ c (Proc.devRef .tc main_v30) = val_main_v39 (F := Ideal) (a0 m c) (a1 m c) (a2 m c) (a3 m c) (a4 m c) := by
  show StableHlo.after hostOps1 (W2 m ρ c) (Proc.devRef .tc main_v30) = _
  after_results_simp
  rw [layer1 m ρ c, W2_src m ρ c, W2_dst m ρ c]
  rfl

theorem W3_cnt (c : Dev nD) :
    W3 m ρ c (Proc.devRef .tc main_v35) = shapeCast S100000x1 (val_main_v43 (F := Ideal) (a1 m c)) shapeCasts_S100000_S100000x1 := by
  show StableHlo.after hostOps1 (W2 m ρ c) (Proc.devRef .tc main_v35) = _
  after_results_simp
  rw [W2_dst m ρ c]
  rfl

theorem W3_root (c : Dev nD) : W3 m ρ c (Proc.devRef .tc main_v20) = val_main_v29 (F := Ideal) (a0 m c) (a1 m c) (a2 m c) (a3 m c) (a4 m c) := by
  show StableHlo.after hostOps1 (W2 m ρ c) (Proc.devRef .tc main_v20) = _
  after_results_simp
  exact layer1 m ρ c

theorem W3_arg5 (c : Dev nD) : W3 m ρ c (Proc.devRef .tc main_arg5) = a5 m c := by
  show StableHlo.after hostOps1 (W2 m ρ c) (Proc.devRef .tc main_arg5) = _
  after_results_simp
  exact W2_arg5 m ρ c

theorem W3_arg6 (c : Dev nD) : W3 m ρ c (Proc.devRef .tc main_arg6) = a6 m c := by
  show StableHlo.after hostOps1 (W2 m ρ c) (Proc.devRef .tc main_arg6) = _
  after_results_simp
  exact W2_arg6 m ρ c

theorem W3_b (c : Dev nD) : W3 m ρ c (Proc.devRef .tc main_v36) = shapeCast S1x128 (a7 m c) shapeCasts_S128_S1x128 := by
  show StableHlo.after hostOps1 (W2 m ρ c) (Proc.devRef .tc main_v36) = _
  after_results_simp
  rw [W2_arg7 m ρ c]
  rfl

/-! ## Region 1 leaves the second layer -/

theorem layer2 (c : Dev nD) :
    W4 m ρ c (Proc.devRef .tc main_v37) = val_main_v55 (F := Ideal) (a0 m c) (a1 m c) (a2 m c) (a3 m c) (a4 m c) (a5 m c) (a6 m c) (a7 m c) := by
  refine ((W4_arr m ρ c 6).trans (Cert.KernelIdeal.Region1.final (V3 m ρ) c)).trans ?_
  show Cert.Sage.layer true (W3 m ρ c (Proc.devRef .tc main_v30)) (W3 m ρ c (Proc.devRef .tc main_v35))
    (W3 m ρ c (Proc.devRef .tc main_v20)) (W3 m ρ c (Proc.devRef .tc main_arg5)) (W3 m ρ c (Proc.devRef .tc main_arg6))
    (W3 m ρ c (Proc.devRef .tc main_v36)) = _
  rw [W3_s, W3_cnt, W3_root, W3_arg5, W3_arg6, W3_b]
  exact (Cert.ReferenceIdeal.Layers.layer2 (a0 m c) (a1 m c) (a2 m c) (a3 m c) (a4 m c) (a5 m c) (a6 m c) (a7 m c) _ _ (fun r => col_apply _ _ r) (fun q => row_apply _ _ q)).symm

/-! ## Before region 2 -/

theorem W4_src (c : Dev nD) : W4 m ρ c (Proc.devRef .tc main_v1) = val_main_v1 (F := Ideal) (a1 m c) := by
  refine (W4_of_ne m ρ c main_v1 (by decide)).trans ?_
  show StableHlo.after hostOps1 (W2 m ρ c) (Proc.devRef .tc main_v1) = _
  after_results_simp
  exact W2_src m ρ c

theorem W4_dst (c : Dev nD) : W4 m ρ c (Proc.devRef .tc main_v3) = val_main_v3 (F := Ideal) (a1 m c) := by
  refine (W4_of_ne m ρ c main_v3 (by decide)).trans ?_
  show StableHlo.after hostOps1 (W2 m ρ c) (Proc.devRef .tc main_v3) = _
  after_results_simp
  exact W2_dst m ρ c

theorem W4_arg8 (c : Dev nD) : W4 m ρ c (Proc.devRef .tc main_arg8) = a8 m c := by
  refine (W4_of_ne m ρ c main_arg8 (by decide)).trans ?_
  show StableHlo.after hostOps1 (W2 m ρ c) (Proc.devRef .tc main_arg8) = _
  after_results_simp
  exact W2_arg8 m ρ c

theorem W4_arg9 (c : Dev nD) : W4 m ρ c (Proc.devRef .tc main_arg9) = a9 m c := by
  refine (W4_of_ne m ρ c main_arg9 (by decide)).trans ?_
  show StableHlo.after hostOps1 (W2 m ρ c) (Proc.devRef .tc main_arg9) = _
  after_results_simp
  exact W2_arg9 m ρ c

theorem W4_arg10 (c : Dev nD) : W4 m ρ c (Proc.devRef .tc main_arg10) = a10 m c := by
  refine (W4_of_ne m ρ c main_arg10 (by decide)).trans ?_
  show StableHlo.after hostOps1 (W2 m ρ c) (Proc.devRef .tc main_arg10) = _
  after_results_simp
  exact W2_arg10 m ρ c

/-- The second layer's rows summed at the edges' targets. -/
theorem W5_s (c : Dev nD) : W5 m ρ c (Proc.devRef .tc main_v47) = val_main_v65 (F := Ideal) (a0 m c) (a1 m c) (a2 m c) (a3 m c) (a4 m c) (a5 m c) (a6 m c) (a7 m c) := by
  show StableHlo.after hostOps2 (W4 m ρ c) (Proc.devRef .tc main_v47) = _
  after_results_simp
  rw [layer2 m ρ c, W4_src m ρ c, W4_dst m ρ c]
  rfl

theorem W5_cnt (c : Dev nD) :
    W5 m ρ c (Proc.devRef .tc main_v52) = shapeCast S100000x1 (val_main_v69 (F := Ideal) (a1 m c)) shapeCasts_S100000_S100000x1 := by
  show StableHlo.after hostOps2 (W4 m ρ c) (Proc.devRef .tc main_v52) = _
  after_results_simp
  rw [W4_dst m ρ c]
  rfl

theorem W5_root (c : Dev nD) : W5 m ρ c (Proc.devRef .tc main_v37) = val_main_v55 (F := Ideal) (a0 m c) (a1 m c) (a2 m c) (a3 m c) (a4 m c) (a5 m c) (a6 m c) (a7 m c) := by
  show StableHlo.after hostOps2 (W4 m ρ c) (Proc.devRef .tc main_v37) = _
  after_results_simp
  exact layer2 m ρ c

/-- Column 0 of the two zero-padded weight matrices holds the one-column weights. -/
theorem W5_wl_col0 (c : Dev nD) (k : Fin 128) :
    (W5 m ρ c (Proc.devRef .tc main_v55) : FVec Ideal S128x128 .f32) (ix2 k (0 : Fin 128)) = a8 m c (ix2 k (0 : Fin 1)) := by
  show StableHlo.after hostOps2 (W4 m ρ c) (Proc.devRef .tc main_v55) (ix2 k (0 : Fin 128)) = _
  after_results_simp
  rw [W4_arg8 m ρ c]
  exact Cert.KernelIdeal.Pad.padMat_col0 _ _ rfl _ k

theorem W5_wr_col0 (c : Dev nD) (k : Fin 128) :
    (W5 m ρ c (Proc.devRef .tc main_v58) : FVec Ideal S128x128 .f32) (ix2 k (0 : Fin 128)) = a9 m c (ix2 k (0 : Fin 1)) := by
  show StableHlo.after hostOps2 (W4 m ρ c) (Proc.devRef .tc main_v58) (ix2 k (0 : Fin 128)) = _
  after_results_simp
  rw [W4_arg9 m ρ c]
  exact Cert.KernelIdeal.Pad.padMat_col0 _ _ rfl _ k

/-- Entry 0 of the zero-padded bias row holds the one bias. -/
theorem W5_b_00 (c : Dev nD) :
    (W5 m ρ c (Proc.devRef .tc main_v62) : FVec Ideal S1x128 .f32) (ix2 (0 : Fin 1) (0 : Fin 128)) = a10 m c (ix1 (0 : Fin 1)) := by
  show StableHlo.after hostOps2 (W4 m ρ c) (Proc.devRef .tc main_v62) (ix2 (0 : Fin 1) (0 : Fin 128)) = _
  after_results_simp
  rw [W4_arg10 m ρ c]
  exact (row_apply _ _ 0).trans (Cert.KernelIdeal.Pad.padVec_0 _ _ rfl _)

/-! ## Region 2 and the last slice: the result -/

/-- The result array is the reference's. -/
theorem result (c : Dev nD) :
    W7 m ρ c (Proc.devRef .tc main_v64) = val_main_v80 (F := Ideal) (a0 m c) (a1 m c) (a2 m c) (a3 m c) (a4 m c) (a5 m c) (a6 m c) (a7 m c) (a8 m c) (a9 m c) (a10 m c) := by
  funext i
  obtain ⟨r, z, rfl⟩ : ∃ (r : Fin 100000) (z : Fin 1), i = ix2 r z := ⟨i 0, i 1, eq_ix2 i⟩
  obtain rfl : z = 0 := Subsingleton.elim _ _
  have h6 : W6 m ρ c (Proc.devRef .tc main_v63)
      = Cert.Sage.layer false (W5 m ρ c (Proc.devRef .tc main_v47)) (W5 m ρ c (Proc.devRef .tc main_v52))
          (W5 m ρ c (Proc.devRef .tc main_v37)) (W5 m ρ c (Proc.devRef .tc main_v55)) (W5 m ρ c (Proc.devRef .tc main_v58))
          (W5 m ρ c (Proc.devRef .tc main_v62)) :=
    (W6_arr m ρ c 6).trans (Cert.KernelIdeal.Region2.final (V5 m ρ) c)
  show StableHlo.after hostOps3 (W6 m ρ c) (Proc.devRef .tc main_v64) (ix2 r (0 : Fin 1)) = _
  after_results_simp
  refine (extractStridedSlice_apply _ _ _ _ (ix2 r (0 : Fin 128)) (fun a => by
    match a with
    | ⟨0, _⟩ => show r.val = 0 + r.val; omega
    | ⟨1, _⟩ => show (0 : Nat) = 0 + 0; rfl)).trans ?_
  rw [h6, W5_s, W5_cnt, W5_root]
  exact (Cert.ReferenceIdeal.Layers.layer3 (a0 m c) (a1 m c) (a2 m c) (a3 m c) (a4 m c) (a5 m c) (a6 m c) (a7 m c) (a8 m c) (a9 m c) (a10 m c) _ _ _ _ (fun r => col_apply _ _ r)
    (W5_b_00 m ρ c) (W5_wl_col0 m ρ c) (W5_wr_col0 m ρ c) r).symm

end Cert.KernelIdeal.Chain

end
-- ==== Proof.lean ====
/-
  The certificate of the three-layer neighbourhood-averaging network (each layer: the neighbours' rows averaged along
  the edges, two 128-wide linear maps, a bias, and in the first two layers the maximum with zero).

  The kernel program keeps the gather and the sums along the edges on the host and runs each layer's arithmetic in one
  pallas_call over 25 blocks of 4000 nodes; the last layer's one-column weights are zero-padded to 128 columns and column
  0 is sliced back out. The reference does everything on the host, the last layer one column wide. Over the extended
  reals the two programs apply the same operations in the same order, so no law of arithmetic is needed: every block of a
  region's result is the layer of the input blocks, the blocks tile the array, the host stretches between the regions are
  the reference's own operations, and column 0 of the padded product is the one-column product.

  The frames of the two kernel programs are the generated ones; the reference's frame is its generated run with the
  result dropped; the idealization rewrote nothing.
-/
import proofs.«417667_j86053964743052_3_alg».proof.Defs
import proofs.«417667_j86053964743052_3_alg».proof.Proof.Gen.Kernel
import proofs.«417667_j86053964743052_3_alg».proof.Proof.Gen.Kernel.Skeleton
import proofs.«417667_j86053964743052_3_alg».proof.Proof.Gen.Kernel.Launch
import proofs.«417667_j86053964743052_3_alg».proof.Proof.Gen.Kernel.Points
import proofs.«417667_j86053964743052_3_alg».proof.Proof.Gen.Kernel.Frame
import proofs.«417667_j86053964743052_3_alg».proof.Proof.Gen.KernelIdeal
import proofs.«417667_j86053964743052_3_alg».proof.Proof.Gen.KernelIdeal.Skeleton
import proofs.«417667_j86053964743052_3_alg».proof.Proof.Gen.KernelIdeal.Launch
import proofs.«417667_j86053964743052_3_alg».proof.Proof.Gen.KernelIdeal.Points
import proofs.«417667_j86053964743052_3_alg».proof.Proof.Gen.KernelIdeal.Frame
import proofs.«417667_j86053964743052_3_alg».proof.Proof.Gen.ReferenceIdeal
import proofs.«417667_j86053964743052_3_alg».proof.Proof.Gen.ReferenceIdeal.Run
import proofs.«417667_j86053964743052_3_alg».proof.Proof.Gen.ReferenceIdeal.Read
import proofs.«417667_j86053964743052_3_alg».proof.Proof.Gen.Pre_finite_inputs
import proofs.«417667_j86053964743052_3_alg».proof.Proof.KernelRun
import proofs.«417667_j86053964743052_3_alg».proof.Proof.KernelValue
import Idealize.ShloMosaic.Adequacy
import Idealize.ShloMosaic.Init

noncomputable section

namespace Cert.Proof

open Idealize.ShloMosaic Idealize.ShloMosaic.TcCoe Idealize.SL.Sem

/-- The reference runs and keeps its arguments: its generated run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Over the extended reals the kernel program's result array is the reference's, from memories agreeing on the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v64),
    Cert.KernelIdeal.Gen.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v80_eq, h0, h1, h2, h3, h4, h5, h6, h7, h8, h9, h10]
  exact (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
